-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000x64 : Shape := ⟨2, ![1600000, 64]⟩
abbrev S3x256 : Shape := ⟨2, ![3, 256]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x64 : S_.BroadcastsInDim S1600000x64 (![] : Fin 0 → Fin S1600000x64.rank)
  reducesTo_S1600000x64_S_d0_1 : S1600000x64.ReducesTo [0, 1] S_
  bcast_S_S3x256 : S_.BroadcastsInDim S3x256 (![] : Fin 0 → Fin S3x256.rank)
  reducesTo_S3x256_S_d0_1 : S3x256.ReducesTo [0, 1] S_
  bcast_S_S2x1600000 : S_.BroadcastsInDim S2x1600000 (![] : Fin 0 → Fin S2x1600000.rank)
  reducesTo_S2x1600000_S_d0_1 : S2x1600000.ReducesTo [0, 1] S_

variable [Facts]

def fn_part1 {F : FTy → Type} [FloatOps F] (main_v13 : IVec S_ 1) (main_v15 : IVec S2x1600000 1) (main_c_5 : IVec S_ 1) : IVec S_ 1 :=
  let main_v16 : IVec S_ 1 := (fun x v => Host.reduce IntOp.andi x v reducesTo_S2x1600000_S_d0_1 h_S_) main_v15 main_c_5
  let main_v17 : IVec S_ 1 := andi main_v13 main_v16
  main_v17

def fn {F : FTy → Type} [FloatOps F] (main_arg0 : FVec F S100000x128 .f32) (main_arg1 : FVec F S1600000x64 .f32) (main_arg2 : FVec F S3x256 .f32) (main_arg3 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x64 .f32 := Host.absf main_arg1
  let main_cst_0 : FVec F S_ .f32 := constant S_ .f32 0x7F800000#32
  let main_v5 : FVec F S1600000x64 .f32 := broadcastInDim S1600000x64 ![] bcast_S_S1600000x64 main_cst_0
  let main_v6 : IVec S1600000x64 1 := cmpf .olt main_v4 main_v5
  let main_c_1 : IVec S_ 1 := constantI S_ 1 1#1
  let main_v7 : IVec S_ 1 := (fun x v => Host.reduce IntOp.andi x v reducesTo_S1600000x64_S_d0_1 h_S_) main_v6 main_c_1
  let main_v8 : IVec S_ 1 := andi main_v3 main_v7
  let main_v9 : FVec F S3x256 .f32 := Host.absf main_arg2
  let main_cst_2 : FVec F S_ .f32 := constant S_ .f32 0x7F800000#32
  let main_v10 : FVec F S3x256 .f32 := broadcastInDim S3x256 ![] bcast_S_S3x256 main_cst_2
  let main_v11 : IVec S3x256 1 := cmpf .olt main_v9 main_v10
  let main_c_3 : IVec S_ 1 := constantI S_ 1 1#1
  let main_v12 : IVec S_ 1 := (fun x v => Host.reduce IntOp.andi x v reducesTo_S3x256_S_d0_1 h_S_) main_v11 main_c_3
  let main_v13 : IVec S_ 1 := andi main_v8 main_v12
  let main_c_4 : IVec S_ 32 := constantI S_ 32 0#32
  let main_v14 : IVec S2x1600000 32 := broadcastInDim S2x1600000 ![] bcast_S_S2x1600000 main_c_4
  let main_v15 : IVec S2x1600000 1 := cmpi .sge main_arg3 main_v14
  let main_c_5 : IVec S_ 1 := constantI S_ 1 1#1
  fn_part1 (F := F) main_v13 main_v15 main_c_5
-- ==== Kernel.lean ====
abbrev S100000x128 : Shape := ⟨2, ![100000, 128]⟩
abbrev S1600000x64 : Shape := ⟨2, ![1600000, 64]⟩
abbrev S3x256 : Shape := ⟨2, ![3, 256]⟩
abbrev S2x1600000 : Shape := ⟨2, ![2, 1600000]⟩
abbrev S3x128 : Shape := ⟨2, ![3, 128]⟩
abbrev S128x3 : Shape := ⟨2, ![128, 3]⟩
abbrev S100000x3 : Shape := ⟨2, ![100000, 3]⟩
abbrev S_ : Shape := ⟨0, ![]⟩
abbrev S100000x4 : Shape := ⟨2, ![100000, 4]⟩
abbrev S1x1600000 : Shape := ⟨2, ![1, 1600000]⟩
abbrev S1600000 : Shape := ⟨1, ![1600000]⟩
abbrev S1600000x1 : Shape := ⟨2, ![1600000, 1]⟩
abbrev S1600000x4 : Shape := ⟨2, ![1600000, 4]⟩
abbrev S1600000x3 : Shape := ⟨2, ![1600000, 3]⟩
abbrev S1600000x67 : Shape := ⟨2, ![1600000, 67]⟩
abbrev S10000x3 : Shape := ⟨2, ![10000, 3]⟩
abbrev S10000x64 : Shape := ⟨2, ![10000, 64]⟩
abbrev S10000x67 : Shape := ⟨2, ![10000, 67]⟩

abbrev nBuf : Space → Nat
  | .hbm => 30
  | .vmem => 6
  | .smem => 0
  | _ => 0

abbrev bufTy : (tb : Table) → Fin (tcTables nBuf tb) → BufTy
  | .hbm, ⟨0, _⟩ => ⟨S100000x128, .f32⟩
  | .hbm, ⟨1, _⟩ => ⟨S1600000x64, .f32⟩
  | .hbm, ⟨2, _⟩ => ⟨S3x256, .f32⟩
  | .hbm, ⟨3, _⟩ => ⟨S2x1600000, .i32⟩
  | .hbm, ⟨4, _⟩ => ⟨S3x128, .f32⟩
  | .hbm, ⟨5, _⟩ => ⟨S128x3, .f32⟩
  | .hbm, ⟨6, _⟩ => ⟨S100000x3, .f32⟩
  | .hbm, ⟨7, _⟩ => ⟨S3x128, .f32⟩
  | .hbm, ⟨8, _⟩ => ⟨S128x3, .f32⟩
  | .hbm, ⟨9, _⟩ => ⟨S100000x3, .f32⟩
  | .hbm, ⟨10, _⟩ => ⟨S_, .i32⟩
  | .hbm, ⟨11, _⟩ => ⟨S_, .f32⟩
  | .hbm, ⟨12, _⟩ => ⟨S100000x4, .f32⟩
  | .hbm, ⟨13, _⟩ => ⟨S_, .i32⟩
  | .hbm, ⟨14, _⟩ => ⟨S_, .f32⟩
  | .hbm, ⟨15, _⟩ => ⟨S100000x4, .f32⟩
  | .hbm, ⟨16, _⟩ => ⟨S1x1600000, .i32⟩
  | .hbm, ⟨17, _⟩ => ⟨S1600000, .i32⟩
  | .hbm, ⟨18, _⟩ => ⟨S1x1600000, .i32⟩
  | .hbm, ⟨19, _⟩ => ⟨S1600000, .i32⟩
  | .hbm, ⟨20, _⟩ => ⟨S1600000x1, .i32⟩
  | .hbm, ⟨21, _⟩ => ⟨S1600000x4, .f32⟩
  | .hbm, ⟨22, _⟩ => ⟨S1600000x1, .i32⟩
  | .hbm, ⟨23, _⟩ => ⟨S1600000x4, .f32⟩
  | .hbm, ⟨24, _⟩ => ⟨S1600000x4, .f32⟩
  | .hbm, ⟨25, _⟩ => ⟨S_, .f32⟩
  | .hbm, ⟨26, _⟩ => ⟨S1600000x4, .f32⟩
  | .hbm, ⟨27, _⟩ => ⟨S1600000x4, .f32⟩
  | .hbm, ⟨28, _⟩ => ⟨S1600000x3, .f32⟩
  | .hbm, ⟨29, _⟩ => ⟨S1600000x67, .f32⟩
  | .local _ .vmem, ⟨0, _⟩ => ⟨S10000x3, .f32⟩
  | .local _ .vmem, ⟨1, _⟩ => ⟨S10000x3, .f32⟩
  | .local _ .vmem, ⟨2, _⟩ => ⟨S10000x64, .f32⟩
  | .local _ .vmem, ⟨3, _⟩ => ⟨S10000x64, .f32⟩
  | .local _ .vmem, ⟨4, _⟩ => ⟨S10000x67, .f32⟩
  | .local _ .vmem, ⟨5, _⟩ => ⟨S10000x67, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_c_0 : Ref sig .tc := ⟨.hbm, 13, rfl⟩
abbrev main_call1_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call2_v0 : Ref sig .tc := ⟨.hbm, 20, rfl⟩
abbrev main_v12 : Ref sig .tc := ⟨.hbm, 21, rfl⟩
abbrev main_call3_v0 : Ref sig .tc := ⟨.hbm, 22, rfl⟩
abbrev main_v13 : Ref sig .tc := ⟨.hbm, 23, rfl⟩
abbrev main_v14 : Ref sig .tc := ⟨.hbm, 24, rfl⟩
abbrev main_call4_cst : Ref sig .tc := ⟨.hbm, 25, rfl⟩
abbrev main_call4_v0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x67 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S3x256_S3x128_0_0 : S3x256.Slices ![0, 0] S3x128
  transposes_S3x128_S128x3_1_0 : S3x128.Transposes [1, 0] S128x3
  slices_S3x256_S3x128_0_128 : S3x256.Slices ![0, 128] S3x128
  pads_S100000x3_S100000x4_000_010 : S100000x3.Pads (![0, 0] : Fin 2 → Nat) ![0, 1] ![0, 0] S100000x4
  h_S_ : 0 < S_.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S1600000_S1600000x1_0 : S1600000.BroadcastsInDim S1600000x1 (![0] : Fin 1 → Fin S1600000x1.rank)
  bcast_S_S1600000x4 : S_.BroadcastsInDim S1600000x4 (![] : Fin 0 → Fin S1600000x4.rank)
  slices_S1600000x4_S1600000x3_0_0 : S1600000x4.Slices ![0, 0] S1600000x3
  inb_S10000x3_S10000x3_0_0 : ∀ a, (![0, 0] : Fin 2 → Nat) a + S10000x3.size a ≤ S10000x3.size a
  h_S10000x3 : 0 < S10000x3.numel
  shapeCasts_S10000x3_S10000x3 : S10000x3.ShapeCasts S10000x3
  inb_S10000x64_S10000x64_0_0 : ∀ a, (![0, 0] : Fin 2 → Nat) a + S10000x64.size a ≤ S10000x64.size a
  h_S10000x64 : 0 < S10000x64.numel
  concatenates_S10000x3_S10000x64_S10000x67_d1 : Shape.Concatenates [S10000x3, S10000x64] S10000x67 1
  inb_S10000x67_S10000x67_0_0 : ∀ a, (![0, 0] : Fin 2 → Nat) a + S10000x67.size a ≤ S10000x67.size a
  h_S10000x67 : 0 < S10000x67.numel
  dot_S100000x128_S128x3_S100000x3_1_0_0_1_n_n_wf : DotDims.WF S100000x128 S128x3 S100000x3 [1] [0] [0] [1] [] []
  gather_S100000x4_S1600000x1_S1600000x4_1_0_n_n_0_1_14_wf : GatherDims.WF S100000x4 S1600000x1 S1600000x4 [1] [0] [] [0] [] 1 ![1, 4]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x3.size a ≤ S1600000x3.size a
  hwx0_0 : ∀ i : grid0.Coords, EltTy.bits .f32 = 32 ∨ (Rect.block (s := S1600000x3) S10000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S1600000x64.size a
  hwx0_1 : ∀ i : grid0.Coords, EltTy.bits .f32 = 32 ∨ (Rect.block (s := S1600000x64) S10000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x67.size a ≤ S1600000x67.size a
  hwx0_2 : ∀ i : grid0.Coords, EltTy.bits .f32 = 32 ∨ (Rect.block (s := S1600000x67) S10000x67.size (cc0_transform_2 i) (hinb0_2 i)).WholeWords (EltTy.packing .f32)

variable [Facts₀]

def dot_S100000x128_S128x3_S100000x3_1_0_0_1_n_n : DotDims S100000x128 S128x3 S100000x3 where
  lhsContracting := [1]
  rhsContracting := [0]
  lhsNonContracting := [0]
  rhsNonContracting := [1]
  lhsBatch := []
  rhsBatch := []
  wf := dot_S100000x128_S128x3_S100000x3_1_0_0_1_n_n_wf
def gather_S100000x4_S1600000x1_S1600000x4_1_0_n_n_0_1_14 : GatherDims S100000x4 S1600000x1 S1600000x4 where
  offsetDims := [1]
  collapsedSliceDims := [0]
  operandBatchingDims := []
  startIndicesBatchingDims := []
  startIndexMap := [0]
  indexVectorDim := 1
  sliceSizes := ![1, 4]
  wf := gather_S100000x4_S1600000x1_S1600000x4_1_0_n_n_0_1_14_wf

abbrev win0_0 : Pipeline.Window sig grid0 :=
  Pipeline.Window.ofSpec (Memref.whole main_v16) S10000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S10000x67.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000x64 : Shape := ⟨2, ![1600000, 64]⟩
abbrev S3x256 : Shape := ⟨2, ![3, 256]⟩
abbrev S2x1600000 : Shape := ⟨2, ![2, 1600000]⟩
abbrev S1x1600000 : Shape := ⟨2, ![1, 1600000]⟩
abbrev S1600000 : Shape := ⟨1, ![1600000]⟩
abbrev S3x128 : Shape := ⟨2, ![3, 128]⟩
abbrev S128x3 : Shape := ⟨2, ![128, 3]⟩
abbrev S100000x3 : Shape := ⟨2, ![100000, 3]⟩
abbrev S_ : Shape := ⟨0, ![]⟩
abbrev S1600000x1 : Shape := ⟨2, ![1600000, 1]⟩
abbrev S1600000x3 : Shape := ⟨2, ![1600000, 3]⟩
abbrev S1600000x67 : Shape := ⟨2, ![1600000, 67]⟩

abbrev nBuf : Space → Nat
  | .hbm => 37
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000x64, .f32⟩
  | .hbm, ⟨2, _⟩ => ⟨S3x256, .f32⟩
  | .hbm, ⟨3, _⟩ => ⟨S2x1600000, .i32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S3x128, .f32⟩
  | .hbm, ⟨9, _⟩ => ⟨S128x3, .f32⟩
  | .hbm, ⟨10, _⟩ => ⟨S100000x3, .f32⟩
  | .hbm, ⟨11, _⟩ => ⟨S3x128, .f32⟩
  | .hbm, ⟨12, _⟩ => ⟨S128x3, .f32⟩
  | .hbm, ⟨13, _⟩ => ⟨S100000x3, .f32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x3, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x3, .f32⟩
  | .hbm, ⟨32, _⟩ => ⟨S1600000x3, .f32⟩
  | .hbm, ⟨33, _⟩ => ⟨S_, .f32⟩
  | .hbm, ⟨34, _⟩ => ⟨S1600000x3, .f32⟩
  | .hbm, ⟨35, _⟩ => ⟨S1600000x3, .f32⟩
  | .hbm, ⟨36, _⟩ => ⟨S1600000x67, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_v10 : Ref sig .tc := ⟨.hbm, 15, rfl⟩
abbrev main_v11 : Ref sig .tc := ⟨.hbm, 16, rfl⟩
abbrev main_c_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_1 : Ref sig .tc := ⟨.hbm, 23, rfl⟩
abbrev main_v17 : Ref sig .tc := ⟨.hbm, 24, rfl⟩
abbrev main_v18 : Ref sig .tc := ⟨.hbm, 25, rfl⟩
abbrev main_c_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_call0_cst : Ref sig .tc := ⟨.hbm, 33, rfl⟩
abbrev main_call0_v0 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S3x256_S3x128_0_0 : S3x256.Slices ![0, 0] S3x128
  transposes_S3x128_S128x3_1_0 : S3x128.Transposes [1, 0] S128x3
  slices_S3x256_S3x128_0_128 : S3x256.Slices ![0, 128] S3x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x3 : S_.BroadcastsInDim S1600000x3 (![] : Fin 0 → Fin S1600000x3.rank)
  concatenates_S1600000x3_S1600000x64_S1600000x67_d1 : Shape.Concatenates [S1600000x3, S1600000x64] S1600000x67 1
  dot_S100000x128_S128x3_S100000x3_1_0_0_1_n_n_wf : DotDims.WF S100000x128 S128x3 S100000x3 [1] [0] [0] [1] [] []
  gather_S100000x3_S1600000x1_S1600000x3_1_0_n_n_0_1_13_wf : GatherDims.WF S100000x3 S1600000x1 S1600000x3 [1] [0] [] [0] [] 1 ![1, 3]

variable [Facts₀]

def dot_S100000x128_S128x3_S100000x3_1_0_0_1_n_n : DotDims S100000x128 S128x3 S100000x3 where
  lhsContracting := [1]
  rhsContracting := [0]
  lhsNonContracting := [0]
  rhsNonContracting := [1]
  lhsBatch := []
  rhsBatch := []
  wf := dot_S100000x128_S128x3_S100000x3_1_0_0_1_n_n_wf
def gather_S100000x3_S1600000x1_S1600000x3_1_0_n_n_0_1_13 : GatherDims S100000x3 S1600000x1 S1600000x3 where
  offsetDims := [1]
  collapsedSliceDims := [0]
  operandBatchingDims := []
  startIndicesBatchingDims := []
  startIndexMap := [0]
  indexVectorDim := 1
  sliceSizes := ![1, 3]
  wf := gather_S100000x3_S1600000x1_S1600000x3_1_0_n_n_0_1_13_wf

class Facts : Prop extends Facts₀ where

variable [Facts]
-- ==== Proof.Joined.lean ====
/-
  The kernel's result array as ONE function of the arrays its region finds.

  The region runs over 160 points; point `t` reads rows `10000 t … 10000 t + 9999` of the edge signal
  (three columns) and of the edge features (64 columns) and writes the same rows of the result
  (67 columns): the two blocks laid side by side, signal first. So the whole result is the whole
  signal array and the whole feature array laid side by side: row `e` of the result is row `e` of the
  signal followed by row `e` of the features. Laying side by side commutes with cutting into row blocks.
-/
import proofs.«426216_j31009663877641_3_alg».proof.Proof.Gen.KernelIdeal.Value
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Joined

open Cert.KernelIdeal Cert.KernelIdeal.Gen Cert.KernelIdeal.Value

variable {F : FTy → Type} [FloatOps F]

/-- Three columns and 64 columns over the same 1600000 rows make 67 columns. -/
theorem sideBySide : Shape.Concatenates [S1600000x3, S1600000x64] S1600000x67 1 := by decide

/-- The signal array and the feature array laid side by side. -/
def joined (sg : S1600000x3.Idx → Elt F .f32) (ft : S1600000x64.Idx → Elt F .f32) : S1600000x67.Idx → Elt F .f32 :=
  concatenate S1600000x67 1 [⟨S1600000x3, sg⟩, ⟨S1600000x64, ft⟩] sideBySide

/-- In the first three columns the joined array is the signal. -/
theorem joined_signal (sg : S1600000x3.Idx → Elt F .f32) (ft : S1600000x64.Idx → Elt F .f32)
    (e : Fin 1600000) (q : Fin 67) (hq : q.val < 3) :
    joined sg ft (ix2 e q) = sg (ix2 e ⟨q.val, hq⟩) := by
  unfold joined
  exact concatenate_pair_apply_left 1 sg ft sideBySide (ix2 e q) rfl (ix2 e ⟨q.val, hq⟩)
    (fun b => match b with | ⟨0, _⟩ => rfl | ⟨1, _⟩ => rfl)

/-- From column 3 on it is the features, three columns to the left. -/
theorem joined_feature (sg : S1600000x3.Idx → Elt F .f32) (ft : S1600000x64.Idx → Elt F .f32)
    (e : Fin 1600000) (q : Fin 67) (hq : 3 ≤ q.val) :
    joined sg ft (ix2 e q) = ft (ix2 e ⟨q.val - 3, by have := q.isLt; omega⟩) := by
  unfold joined
  exact concatenate_pair_apply_right 1 sg ft sideBySide (ix2 e q) rfl rfl (ix2 e ⟨q.val - 3, by have := q.isLt; omega⟩)
    (fun b hb => match b, hb with | ⟨0, _⟩, _ => rfl | ⟨1, _⟩, hb => absurd rfl hb)
    (by show q.val - 3 + 3 = q.val; omega)

/-- The body's stored block, in its first three columns, is the signal block. -/
theorem pay_signal (x0 : Vec F S10000x3 .f32) (x1 : Vec F S10000x64 .f32) (r : Fin 10000) (q : Fin 67) (hq : q.val < 3) :
    k0_pay1 x0 x1 (ix2 r q) = x0 (ix2 r ⟨q.val, hq⟩) := by
  unfold k0_pay1
  rw [shapeCast_self]
  exact concatenate_pair_apply_left 1 x0 x1 concatenates_S10000x3_S10000x64_S10000x67_d1 (ix2 r q) rfl (ix2 r ⟨q.val, hq⟩)
    (fun b => match b with | ⟨0, _⟩ => rfl | ⟨1, _⟩ => rfl)

/-- From column 3 on it is the feature block, three columns to the left. -/
theorem pay_feature (x0 : Vec F S10000x3 .f32) (x1 : Vec F S10000x64 .f32) (r : Fin 10000) (q : Fin 67) (hq : 3 ≤ q.val) :
    k0_pay1 x0 x1 (ix2 r q) = x1 (ix2 r ⟨q.val - 3, by have := q.isLt; omega⟩) := by
  unfold k0_pay1
  rw [shapeCast_self]
  exact concatenate_pair_apply_right 1 x0 x1 concatenates_S10000x3_S10000x64_S10000x67_d1 (ix2 r q) rfl rfl
    (ix2 r ⟨q.val - 3, by have := q.isLt; omega⟩)
    (fun b hb => match b, hb with | ⟨0, _⟩, _ => rfl | ⟨1, _⟩, hb => absurd rfl hb)
    (by show q.val - 3 + 3 = q.val; omega)

/-- A block that is rows `10000 k …` of the two arrays, joined, is rows `10000 k …` of the joined arrays. -/
theorem pay_rows (x0 : Vec F S10000x3 .f32) (x1 : Vec F S10000x64 .f32)
    (sg : S1600000x3.Idx → Elt F .f32) (ft : S1600000x64.Idx → Elt F .f32) (k : Nat) (hk : k < 160)
    (h0 : ∀ (r : Fin 10000) (q : Fin 3), x0 (ix2 r q) = sg (ix2 ⟨k * 10000 + r.val, by have := r.isLt; omega⟩ q))
    (h1 : ∀ (r : Fin 10000) (q : Fin 64), x1 (ix2 r q) = ft (ix2 ⟨k * 10000 + r.val, by have := r.isLt; omega⟩ q))
    (r : Fin 10000) (q : Fin 67) :
    k0_pay1 x0 x1 (ix2 r q) = joined sg ft (ix2 ⟨k * 10000 + r.val, by have := r.isLt; omega⟩ q) := by
  by_cases hq : q.val < 3
  · rw [pay_signal x0 x1 r q hq, joined_signal sg ft _ q hq, h0]
  · have hq' : 3 ≤ q.val := Nat.le_of_not_lt hq
    rw [pay_feature x0 x1 r q hq', joined_feature sg ft _ q hq', h1]

end Cert.KernelIdeal.Joined

end
-- ==== Proof.KernelArray.lean ====
/-
  The kernel's run, read: after the region the result array is the signal array and the feature
  array (as the region finds them) laid side by side.

  Point `t` of the 160 reads block `t` of each input (rows `10000 t … 10000 t + 9999`, all columns)
  and writes block `t` of the result; every row `e` of the result lies in the block of point `e / 10000`.
-/
import proofs.«426216_j31009663877641_3_alg».proof.Proof.Joined

noncomputable section

open Idealize.ShloMosaic Idealize.ShloMosaic.TcCoe Idealize.SL.Sem Idealize.ShloMosaic.ValueIdx
open Idealize.ShloMosaic.Pipeline (Dat)

namespace Cert.KernelIdeal.Joined

open Cert.KernelIdeal Cert.KernelIdeal.Gen Cert.KernelIdeal.Value

variable {F : FTy → Type} [FloatOps F]
variable (m : (ℓ : Loc nD τ sig) → Buf (Elt F) ℓ) (ρ : Dev nD → PrngReg)

theorem origin : (![0, 0] : Fin 2 → Nat) = fun _ => 0 := funext fun a => by fin_cases a <;> rfl

/-- There are 160 points. -/
theorem point_lt (t : Fin cfg0.N) : t.val < 160 :=
  Nat.lt_of_lt_of_eq t.isLt (show cfg0.N = 160 from N_0)

/-- Every window's block index at point `t` is `(t, 0)`: the row blocks in order, all columns. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The signal block at point `t` is rows `10000 t …` of the signal array. -/
theorem signal_block (c : Dev nD) (t : Fin cfg0.N) (r : Fin 10000) (q : Fin 3) :
    (iblk m c 0 t : Vec F S10000x3 .f32) (ix2 r q)
      = (V m c main_v16 : S1600000x3.Idx → Elt F .f32)
          (ix2 ⟨t.val * 10000 + r.val, by have := point_lt t; have := r.isLt; omega⟩ q) := by
  obtain ⟨e0, e1, -⟩ := block_index t
  unfold iblk
  rw [View.read_apply]
  show (V m c main_v16 : S1600000x3.Idx → Elt F .f32) _ = _
  refine congrArg (V m c main_v16 : S1600000x3.Idx → Elt F .f32) ?_
  funext a
  apply Fin.ext
  match a with
  | ⟨0, _⟩ => show win0_0.index t (0 : Fin 2) * 10000 + 1 * r.val = t.val * 10000 + r.val; rw [e0]; omega
  | ⟨1, _⟩ => show win0_0.index t (1 : Fin 2) * 3 + 1 * q.val = q.val; rw [e1]; omega

/-- The feature block at point `t` is rows `10000 t …` of the feature array. -/
theorem feature_block (c : Dev nD) (t : Fin cfg0.N) (r : Fin 10000) (q : Fin 64) :
    (iblk m c 1 t : Vec F S10000x64 .f32) (ix2 r q)
      = (V m c main_arg1 : S1600000x64.Idx → Elt F .f32)
          (ix2 ⟨t.val * 10000 + r.val, by have := point_lt t; have := r.isLt; omega⟩ q) := by
  obtain ⟨-, -, e2, e3, -⟩ := block_index t
  unfold iblk
  rw [View.read_apply]
  show (V m c main_arg1 : S1600000x64.Idx → Elt F .f32) _ = _
  refine congrArg (V m c main_arg1 : S1600000x64.Idx → Elt F .f32) ?_
  funext a
  apply Fin.ext
  match a with
  | ⟨0, _⟩ => show win0_1.index t (0 : Fin 2) * 10000 + 1 * r.val = t.val * 10000 + r.val; rw [e2]; omega
  | ⟨1, _⟩ => show win0_1.index t (1 : Fin 2) * 64 + 1 * q.val = q.val; rw [e3]; omega

/-- What point `t` writes back is block `t` of the joined arrays. -/
theorem flushed_eq (c : Dev nD) (t : Fin cfg0.N) :
    (dats m 0 c).flushed 2 t
      = ((cfg0.win 2).blk t).view.read (Elt F) (joined (V m c main_v16) (V m c main_arg1)) := by
  rw [flushed2]
  unfold out0_2
  rw [View.canon_unit_zero origin]
  simp only [View.ld_unit_zero (S := S10000x3) origin, View.ld_unit_zero (S := S10000x64) origin]
  obtain ⟨-, -, -, -, e4, e5⟩ := block_index t
  refine funext fun (j : S10000x67.Idx) => ?_
  obtain ⟨r, q, rfl⟩ : ∃ (r : Fin 10000) (q : Fin 67), j = ix2 r q := ⟨j 0, j 1, eq_ix2 j⟩
  show k0_pay1 (iblk m c 0 t) (iblk m c 1 t) (ix2 r q)
    = joined (V m c main_v16) (V m c main_arg1) (((cfg0.win 2).blk t).view.emb (ix2 r q))
  refine (pay_rows (iblk m c 0 t) (iblk m c 1 t) (V m c main_v16) (V m c main_arg1) t.val (point_lt t)
    (signal_block m c t) (feature_block m c t) r q).trans ?_
  refine congrArg (joined (V m c main_v16) (V m c main_arg1)) ?_
  funext a
  apply Fin.ext
  match a with
  | ⟨0, _⟩ => show t.val * 10000 + r.val = win0_2.index t (0 : Fin 2) * 10000 + 1 * r.val; rw [e4]; omega
  | ⟨1, _⟩ => show q.val = win0_2.index t (1 : Fin 2) * 67 + 1 * q.val; rw [e5]; omega

/-- An index of the result is in point `t`'s block iff each coordinate is in the block's range. -/
theorem mem_block (t : Fin cfg0.N) (i : S1600000x67.Idx) :
    i ∈ ((cfg0.win 2).blk t).view.set ↔ ∀ a : Fin 2, win0_2.index t a * S10000x67.size a ≤ (i a).val
      ∧ (i a).val < win0_2.index t a * S10000x67.size a + S10000x67.size a := by
  show i ∈ ((View.whole main_v17).slice (win0_2.rect t)).set ↔ _
  rw [View.set_slice_whole, Rect.mem_set_unit]
  exact Iff.rfl

/-- The result array after the run: the two arrays joined. -/
theorem final (c : Dev nD) : (dats m 0 c).arrAt 2 cfg0.N = joined (V m c main_v16) (V m c main_arg1) :=
  (dats m 0 c).arrAt_eq_of_cover 2 (joined (V m c main_v16) (V m c main_arg1)) (fun t _ => flushed_eq m c t) fun i => by
    have hi0 : (i 0).val < 1600000 := (i 0).isLt
    have hi1 : (i 1).val < 67 := (i 1).isLt
    have ht : (i 0).val / 10000 < cfg0.N := by rw [show cfg0.N = 160 from N_0]; omega
    obtain ⟨-, -, -, -, e4, e5⟩ := block_index ⟨(i 0).val / 10000, ht⟩
    refine ⟨⟨(i 0).val / 10000, ht⟩, flush0_2 _, ?_⟩
    rw [mem_block]
    intro a
    match a with
    | ⟨0, _⟩ =>
      show win0_2.index ⟨(i 0).val / 10000, ht⟩ (0 : Fin 2) * 10000 ≤ (i 0).val
        ∧ (i 0).val < win0_2.index ⟨(i 0).val / 10000, ht⟩ (0 : Fin 2) * 10000 + 10000
      rw [e4]
      show (i 0).val / 10000 * 10000 ≤ (i 0).val ∧ (i 0).val < (i 0).val / 10000 * 10000 + 10000
      omega
    | ⟨1, _⟩ =>
      show win0_2.index ⟨(i 0).val / 10000, ht⟩ (1 : Fin 2) * 67 ≤ (i 1).val
        ∧ (i 1).val < win0_2.index ⟨(i 0).val / 10000, ht⟩ (1 : Fin 2) * 67 + 67
      rw [e5]
      omega

/-- The kernel's run with the result array named: the joined arrays; the arguments unchanged. -/
theorem run_joined : θ_run defs (onTc (τ := τ) (main (F := F))) ⟨m, fun _ => 0, ρ⟩ fun r => ∀ c : Dev nD,
      r.2.mem ((c : Thread nD τ).loc main_v17) = joined (V m c main_v16) (V m c main_arg1)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (run_blocks m ρ)

end Cert.KernelIdeal.Joined

end
-- ==== Proof.LibRowTake.lean ====
/-
  Taking rows of a table by a column of integer positions.

  `table[idx]` over a table of `N` rows and `C` columns, with `E` positions kept as an `E × 1` column:
  entry `(e, q)` of the result is entry `(row e, q)` of the table, where `row e` is position `e` read as a
  signed integer and clamped into `[0, N - 1]`: a negative position reads row 0, one past the end the last
  row. And the position arithmetic in front of such a take that maps a negative position `i` to `i + N`
  leaves a position that is not negative as it is.
-/
import Idealize.ShloMosaic.PureOps
import Idealize.ShloMosaic.Lib.ValueIdx
import Idealize.ShloMosaic.Lib.DynamicIndex

noncomputable section

open Idealize.ShloMosaic Idealize.ShloMosaic.ValueIdx

namespace Cert.RowTake

/-- The dimension numbers of a take of whole rows: the table's row axis is indexed and dropped, its column
    axis is carried over; the positions are an `E × 1` column. -/
abbrev rowDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row a position selects: read signed, clamped into the table. -/
def rowOf {w : Nat} (N : Nat) (hN : 0 < N) (p : BitVec w) : Fin N := ⟨min p.toInt.toNat (N - 1), by omega⟩

/-- THE TAKE AT `(e, q)`: the table at `(rowOf (position e), q)`. -/
theorem gather_rows_apply {α : Type} {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowDims N C E wf) x idx (ix2 e q) = x (ix2 (rowOf N hN (idx (ix2 e (0 : Fin 1)))) q) := by
  unfold Host.gather
  refine congrArg x ?_
  funext a
  refine Fin.ext ?_
  match a with
  | ⟨0, _⟩ =>
    show (rowDims N C E wf).start (ix2 e q) idx 0 + (rowDims N C E wf).batchCoord (ix2 e q) 0
      + (rowDims N C E wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C E wf).startIndexMap from List.mem_singleton.mpr rfl)]
    have hsi : (rowDims N C E wf).siIdx (ix2 e q) ⟨List.idxOf (0 : Fin 2) (rowDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N C E wf).start (ix2 e q) idx 1 + (rowDims N C E wf).batchCoord (ix2 e q) 1
      + (rowDims N C E wf).offCoord (ix2 e q) 1 = q.val
    rw [GatherDims.batchCoord_eq_zero _ _ _ List.not_mem_nil]
    unfold GatherDims.start GatherDims.offCoord
    rw [dif_neg (show (1 : Fin 2) ∉ ([0] : List (Fin 2)) by decide),
      dif_pos ((GatherDims.mem_sKept _ _).mpr ⟨show (1 : Fin 2) ∉ ([0] : List (Fin 2)) by decide, List.not_mem_nil⟩),
      Nat.zero_add]
    rfl

/-- A position that is not negative passes the wrap-around `i < 0 ? i + n : i` unchanged. -/
theorem wrap_of_nonneg {s : Shape} (i n z : IVec s 32) (hz : ∀ j, z j = 0#32) (j : s.Idx)
    (h : 0 ≤ (i j).toInt) : select (cmpi .slt i z) (addi i n) i j = i j := by
  obtain rfl : z = constantI s 32 0#32 := funext hz
  exact select_slt_zero_of_nonneg i (addi i n) i j h

end Cert.RowTake

end
-- ==== Proof.EdgeSignal.lean ====
/-
  The edge signal, the kernel's way and the reference's way, is one array when no position is negative.

  Both project the node features onto three heads twice (a source table `s` and a target table `t`, each
  100000 × 3), take for edge `e` row `src e` of `s` and row `tgt e` of `t`, add, and clamp below at zero:
      signal (e, k) = max (s (src e, k) + t (tgt e, k)) 0.
  The kernel's program first widens both tables by a fourth column, takes rows of the widened tables with
  the positions clamped into the table, and cuts the fourth column off at the end; a widened table read in
  its first three columns is the table. The reference first sends a negative position `i` to `i + 100000`
  and then takes rows with the same clamp; a position that is not negative is left as it is. So for
  non-negative positions both read row `min (position) 99999` of the same tables.
-/
import proofs.«426216_j31009663877641_3_alg».proof.KernelIdeal
import proofs.«426216_j31009663877641_3_alg».proof.ReferenceIdeal
import proofs.«426216_j31009663877641_3_alg».proof.Proof.Gen.KernelIdeal
import proofs.«426216_j31009663877641_3_alg».proof.Proof.Gen.ReferenceIdeal
import proofs.«426216_j31009663877641_3_alg».proof.Proof.LibRowTake
import Idealize.ShloMosaic.Lib.Pipeline.Value
import Idealize.ShloMosaic.Lib.KernelVsHost
import Idealize.ShloMosaic.Lib.StableHlo.Predicate

noncomputable section

open Idealize.ShloMosaic Idealize.ShloMosaic.ValueIdx

namespace Cert.EdgeSignal

open Cert.RowTake

variable {F : FTy → Type} [FloatOps F]

/-! ## The two programs' terms -/

/-- The kernel program's edge signal as a function of the node features, the attention vectors and the positions. -/
def kernelSignal (a0 : FVec F Cert.KernelIdeal.S100000x128 .f32) (a2 : FVec F Cert.KernelIdeal.S3x256 .f32) (a3 : IVec Cert.KernelIdeal.S2x1600000 32) :
    FVec F Cert.KernelIdeal.S1600000x3 .f32 :=
  extractStridedSlice Cert.KernelIdeal.S1600000x3 ![0, 0]
    (maximumf
      (addf
        (Host.gather Cert.KernelIdeal.gather_S100000x4_S1600000x1_S1600000x4_1_0_n_n_0_1_14
          (pad Cert.KernelIdeal.S100000x4 ![0, 0] ![0, 1] ![0, 0] (Host.dotGeneral Cert.KernelIdeal.dot_S100000x128_S128x3_S100000x3_1_0_0_1_n_n none a0 (transpose Cert.KernelIdeal.S128x3 [1, 0] (extractStridedSlice Cert.KernelIdeal.S3x128 ![0, 0] a2 Cert.KernelIdeal.Facts₀.slices_S3x256_S3x128_0_0) Cert.KernelIdeal.Facts₀.transposes_S3x128_S128x3_1_0))
            (sitofp .f32 (constantI Cert.KernelIdeal.S_ 32 0#32)) Cert.KernelIdeal.Facts₀.pads_S100000x3_S100000x4_000_010 Cert.KernelIdeal.Facts₀.h_S_)
          (broadcastInDim Cert.KernelIdeal.S1600000x1 ![0] Cert.KernelIdeal.Facts₀.bcast_S1600000_S1600000x1_0 (shapeCast Cert.KernelIdeal.S1600000 (extractStridedSlice Cert.KernelIdeal.S1x1600000 ![0, 0] a3 Cert.KernelIdeal.Facts₀.slices_S2x1600000_S1x1600000_0_0) Cert.KernelIdeal.Facts₀.shapeCasts_S1x1600000_S1600000)))
        (Host.gather Cert.KernelIdeal.gather_S100000x4_S1600000x1_S1600000x4_1_0_n_n_0_1_14
          (pad Cert.KernelIdeal.S100000x4 ![0, 0] ![0, 1] ![0, 0] (Host.dotGeneral Cert.KernelIdeal.dot_S100000x128_S128x3_S100000x3_1_0_0_1_n_n none a0 (transpose Cert.KernelIdeal.S128x3 [1, 0] (extractStridedSlice Cert.KernelIdeal.S3x128 ![0, 128] a2 Cert.KernelIdeal.Facts₀.slices_S3x256_S3x128_0_128) Cert.KernelIdeal.Facts₀.transposes_S3x128_S128x3_1_0))
            (sitofp .f32 (constantI Cert.KernelIdeal.S_ 32 0#32)) Cert.KernelIdeal.Facts₀.pads_S100000x3_S100000x4_000_010 Cert.KernelIdeal.Facts₀.h_S_)
          (broadcastInDim Cert.KernelIdeal.S1600000x1 ![0] Cert.KernelIdeal.Facts₀.bcast_S1600000_S1600000x1_0 (shapeCast Cert.KernelIdeal.S1600000 (extractStridedSlice Cert.KernelIdeal.S1x1600000 ![1, 0] a3 Cert.KernelIdeal.Facts₀.slices_S2x1600000_S1x1600000_1_0) Cert.KernelIdeal.Facts₀.shapeCasts_S1x1600000_S1600000))))
      (broadcastInDim Cert.KernelIdeal.S1600000x4 ![] Cert.KernelIdeal.Facts₀.bcast_S_S1600000x4 (constant Cert.KernelIdeal.S_ .f32 0x00000000#32)))
    Cert.KernelIdeal.Facts₀.slices_S1600000x4_S1600000x3_0_0

/-- The wrap-around of a position vector in front of a take: a negative position `i` becomes `i + 100000`. -/
def wrapped (p : IVec Cert.ReferenceIdeal.S1600000 32) : IVec Cert.ReferenceIdeal.S1600000 32 :=
  select (cmpi .slt p (broadcastInDim Cert.ReferenceIdeal.S1600000 ![] Cert.ReferenceIdeal.Facts₀.bcast_S_S1600000 (constantI Cert.ReferenceIdeal.S_ 32 0#32)))
    (addi p (broadcastInDim Cert.ReferenceIdeal.S1600000 ![] Cert.ReferenceIdeal.Facts₀.bcast_S_S1600000 (constantI Cert.ReferenceIdeal.S_ 32 100000#32))) p

/-- The reference program's edge signal as a function of the same arrays. -/
def referenceSignal (a0 : FVec F Cert.ReferenceIdeal.S100000x128 .f32) (a2 : FVec F Cert.ReferenceIdeal.S3x256 .f32) (a3 : IVec Cert.ReferenceIdeal.S2x1600000 32) :
    FVec F Cert.ReferenceIdeal.S1600000x3 .f32 :=
  maximumf
    (addf
      (Host.gather Cert.ReferenceIdeal.gather_S100000x3_S1600000x1_S1600000x3_1_0_n_n_0_1_13 (Host.dotGeneral Cert.ReferenceIdeal.dot_S100000x128_S128x3_S100000x3_1_0_0_1_n_n none a0 (transpose Cert.ReferenceIdeal.S128x3 [1, 0] (extractStridedSlice Cert.ReferenceIdeal.S3x128 ![0, 0] a2 Cert.ReferenceIdeal.Facts₀.slices_S3x256_S3x128_0_0) Cert.ReferenceIdeal.Facts₀.transposes_S3x128_S128x3_1_0))
        (broadcastInDim Cert.ReferenceIdeal.S1600000x1 ![0] Cert.ReferenceIdeal.Facts₀.bcast_S1600000_S1600000x1_0 (wrapped (shapeCast Cert.ReferenceIdeal.S1600000 (extractStridedSlice Cert.ReferenceIdeal.S1x1600000 ![0, 0] a3 Cert.ReferenceIdeal.Facts₀.slices_S2x1600000_S1x1600000_0_0) Cert.ReferenceIdeal.Facts₀.shapeCasts_S1x1600000_S1600000))))
      (Host.gather Cert.ReferenceIdeal.gather_S100000x3_S1600000x1_S1600000x3_1_0_n_n_0_1_13 (Host.dotGeneral Cert.ReferenceIdeal.dot_S100000x128_S128x3_S100000x3_1_0_0_1_n_n none a0 (transpose Cert.ReferenceIdeal.S128x3 [1, 0] (extractStridedSlice Cert.ReferenceIdeal.S3x128 ![0, 128] a2 Cert.ReferenceIdeal.Facts₀.slices_S3x256_S3x128_0_128) Cert.ReferenceIdeal.Facts₀.transposes_S3x128_S128x3_1_0))
        (broadcastInDim Cert.ReferenceIdeal.S1600000x1 ![0] Cert.ReferenceIdeal.Facts₀.bcast_S1600000_S1600000x1_0 (wrapped (shapeCast Cert.ReferenceIdeal.S1600000 (extractStridedSlice Cert.ReferenceIdeal.S1x1600000 ![1, 0] a3 Cert.ReferenceIdeal.Facts₀.slices_S2x1600000_S1x1600000_1_0) Cert.ReferenceIdeal.Facts₀.shapeCasts_S1x1600000_S1600000)))))
    (broadcastInDim Cert.ReferenceIdeal.S1600000x3 ![] Cert.ReferenceIdeal.Facts₀.bcast_S_S1600000x3 (constant Cert.ReferenceIdeal.S_ .f32 0x00000000#32))

/-! ## Reading the pieces at an index -/

/-- A vector kept as a column reads, at `(e, 0)`, its entry `e`. -/
theorem column_apply {α : Type} {n : Nat} (h : (⟨1, ![n]⟩ : Shape).BroadcastsInDim ⟨2, ![n, 1]⟩ ![0])
    (v : (⟨1, ![n]⟩ : Shape).Idx → α) (e : Fin n) :
    broadcastInDim ⟨2, ![n, 1]⟩ ![0] h v (ix2 e (0 : Fin 1)) = v (ix1 e) := by
  simp only [broadcastInDim]
  refine congrArg v ?_
  funext a
  have ha : a = 0 := Subsingleton.elim _ _
  subst ha
  apply Fin.ext
  have he := e.isLt
  split
  · next h1 => change n = 1 at h1; show (0 : Nat) = e.val; omega
  · rfl

/-- The kernel program's take of rows of a widened table. -/
theorem take_widened (x : FVec F Cert.KernelIdeal.S100000x4 .f32) (idx : IVec Cert.KernelIdeal.S1600000x1 32) (e : Fin 1600000) (q : Fin 4) :
    Host.gather Cert.KernelIdeal.gather_S100000x4_S1600000x1_S1600000x4_1_0_n_n_0_1_14 x idx (ix2 e q) = x (ix2 (rowOf 100000 (by decide) (idx (ix2 e (0 : Fin 1)))) q) :=
  gather_rows_apply (by decide) Cert.KernelIdeal.Facts₀.gather_S100000x4_S1600000x1_S1600000x4_1_0_n_n_0_1_14_wf x idx e q

/-- The reference program's take of rows of a table. -/
theorem take_plain (x : FVec F Cert.ReferenceIdeal.S100000x3 .f32) (idx : IVec Cert.ReferenceIdeal.S1600000x1 32) (e : Fin 1600000) (q : Fin 3) :
    Host.gather Cert.ReferenceIdeal.gather_S100000x3_S1600000x1_S1600000x3_1_0_n_n_0_1_13 x idx (ix2 e q) = x (ix2 (rowOf 100000 (by decide) (idx (ix2 e (0 : Fin 1)))) q) :=
  gather_rows_apply (by decide) Cert.ReferenceIdeal.Facts₀.gather_S100000x3_S1600000x1_S1600000x3_1_0_n_n_0_1_13_wf x idx e q

/-- A table widened by one column on the right, read in one of its own columns, is the table. -/
theorem widened_apply (x : FVec F Cert.KernelIdeal.S100000x3 .f32) (pv : FVec F Cert.KernelIdeal.S_ .f32) (r : Fin 100000) (q : Fin 3) :
    pad Cert.KernelIdeal.S100000x4 ![0, 0] ![0, 1] ![0, 0] x pv Cert.KernelIdeal.Facts₀.pads_S100000x3_S100000x4_000_010 Cert.KernelIdeal.Facts₀.h_S_
      (ix2 r ⟨q.val, by have := q.isLt; omega⟩) = x (ix2 r q) :=
  pad_apply_of_inside ![0, 0] ![0, 1] ![0, 0] x pv Cert.KernelIdeal.Facts₀.pads_S100000x3_S100000x4_000_010 Cert.KernelIdeal.Facts₀.h_S_ _ (ix2 r q)
    (fun a => match a with
      | ⟨0, _⟩ => by show r.val = 0 + r.val * (0 + 1); omega
      | ⟨1, _⟩ => by show q.val = 0 + q.val * (0 + 1); omega)

/-- Row `e` taken from a widened table by a position vector, read in one of the table's own columns. -/
theorem taken_widened (x : FVec F Cert.KernelIdeal.S100000x3 .f32) (pv : FVec F Cert.KernelIdeal.S_ .f32) (p : IVec Cert.KernelIdeal.S1600000 32)
    (e : Fin 1600000) (q : Fin 3) :
    Host.gather Cert.KernelIdeal.gather_S100000x4_S1600000x1_S1600000x4_1_0_n_n_0_1_14
        (pad Cert.KernelIdeal.S100000x4 ![0, 0] ![0, 1] ![0, 0] x pv Cert.KernelIdeal.Facts₀.pads_S100000x3_S100000x4_000_010 Cert.KernelIdeal.Facts₀.h_S_)
        (broadcastInDim Cert.KernelIdeal.S1600000x1 ![0] Cert.KernelIdeal.Facts₀.bcast_S1600000_S1600000x1_0 p)
        (ix2 e ⟨q.val, by have := q.isLt; omega⟩)
      = x (ix2 (rowOf 100000 (by decide) (p (ix1 e))) q) := by
  rw [take_widened, column_apply]
  exact widened_apply x pv _ q

/-- Row `e` taken from a table by a wrapped position vector whose entry `e` is not negative. -/
theorem taken_wrapped (x : FVec F Cert.ReferenceIdeal.S100000x3 .f32) (p : IVec Cert.ReferenceIdeal.S1600000 32) (e : Fin 1600000) (q : Fin 3)
    (hp : 0 ≤ (p (ix1 e)).toInt) :
    Host.gather Cert.ReferenceIdeal.gather_S100000x3_S1600000x1_S1600000x3_1_0_n_n_0_1_13 x (broadcastInDim Cert.ReferenceIdeal.S1600000x1 ![0] Cert.ReferenceIdeal.Facts₀.bcast_S1600000_S1600000x1_0 (wrapped p)) (ix2 e q)
      = x (ix2 (rowOf 100000 (by decide) (p (ix1 e))) q) := by
  rw [take_plain, column_apply]
  unfold wrapped
  rw [wrap_of_nonneg p
    (broadcastInDim Cert.ReferenceIdeal.S1600000 ![] Cert.ReferenceIdeal.Facts₀.bcast_S_S1600000 (constantI Cert.ReferenceIdeal.S_ 32 100000#32))
    (broadcastInDim Cert.ReferenceIdeal.S1600000 ![] Cert.ReferenceIdeal.Facts₀.bcast_S_S1600000 (constantI Cert.ReferenceIdeal.S_ 32 0#32))
    (fun _ => rfl) (ix1 e) hp]

/-! ## The two signals agree -/

/-- Entry `e` of a position row kept as a vector is entry `(row, e)` of the position table. -/
theorem position_apply (a3 : IVec Cert.KernelIdeal.S2x1600000 32) (k : Nat) (hk : k < 2)
    (hs : Cert.KernelIdeal.S2x1600000.Slices ![k, 0] Cert.KernelIdeal.S1x1600000) (hc : Cert.KernelIdeal.S1x1600000.ShapeCasts Cert.KernelIdeal.S1600000) (e : Fin 1600000) :
    shapeCast Cert.KernelIdeal.S1600000 (extractStridedSlice Cert.KernelIdeal.S1x1600000 ![k, 0] a3 hs) hc (ix1 e) = a3 (ix2 (⟨k, hk⟩ : Fin 2) e) := by
  refine (shapeCast_apply _ hc (ix1 e) (ix2 (0 : Fin 1) e)
    (by rewrite [Shape.rowMajor_val_two, Shape.rowMajor_val_one]; show 0 * 1600000 + e.val = e.val; omega)).trans ?_
  exact extractStridedSlice_apply _ a3 hs (ix2 (0 : Fin 1) e) (ix2 (⟨k, hk⟩ : Fin 2) e)
    (fun a => match a with
      | ⟨0, _⟩ => by show k = k + 0; omega
      | ⟨1, _⟩ => by show e.val = 0 + e.val; omega)

/-- THE BRIDGE: with no negative position the kernel program's edge signal is the reference program's. -/
theorem signal_agree (a0 : FVec F Cert.KernelIdeal.S100000x128 .f32) (a2 : FVec F Cert.KernelIdeal.S3x256 .f32) (a3 : IVec Cert.KernelIdeal.S2x1600000 32)
    (h3 : ∀ i, 0 ≤ (a3 i).toInt) :
    kernelSignal a0 a2 a3 = referenceSignal a0 a2 a3 := by
  funext i
  obtain ⟨e, q, rfl⟩ : ∃ (e : Fin 1600000) (q : Fin 3), i = ix2 e q := ⟨i 0, i 1, eq_ix2 i⟩
  unfold kernelSignal referenceSignal
  refine (extractStridedSlice_apply ![0, 0] _ Cert.KernelIdeal.Facts₀.slices_S1600000x4_S1600000x3_0_0 (ix2 e q)
    (ix2 e ⟨q.val, by have := q.isLt; omega⟩)
    (fun a => match a with
      | ⟨0, _⟩ => by show e.val = 0 + e.val; omega
      | ⟨1, _⟩ => by show q.val = 0 + q.val; omega)).trans ?_
  show FloatOps.maximumf (FloatOps.addf (Host.gather _ _ _ _) (Host.gather _ _ _ _)) _
    = FloatOps.maximumf (FloatOps.addf (Host.gather _ _ _ _) (Host.gather _ _ _ _)) _
  rw [taken_widened, taken_widened,
    taken_wrapped _ _ e q
      (Eq.mpr (congrArg (fun z : BitVec 32 => 0 ≤ z.toInt) (position_apply a3 0 (by decide) _ _ e)) (h3 _)),
    taken_wrapped _ _ e q
      (Eq.mpr (congrArg (fun z : BitVec 32 => 0 ≤ z.toInt) (position_apply a3 1 (by decide) _ _ e)) (h3 _))]
  rfl

end Cert.EdgeSignal

end
-- ==== Proof.KernelValue.lean ====
/-
  The kernel's run as a function of the ARGUMENTS: the array the region reads its signal blocks from is what
  the host operations in front of the region computed — the edge signal of the node features, the attention
  vectors and the positions — and the feature array is the argument itself, untouched. So the result is the
  edge signal and the edge features laid side by side.
-/
import proofs.«426216_j31009663877641_3_alg».proof.Proof.KernelArray
import proofs.«426216_j31009663877641_3_alg».proof.Proof.EdgeSignal
import Idealize.ShloMosaic.Lib.StableHlo.Run

noncomputable section

open Idealize.ShloMosaic Idealize.ShloMosaic.TcCoe Idealize.SL.Sem Idealize.ShloMosaic.StableHlo

namespace Cert.KernelIdeal.Joined

open Cert.KernelIdeal Cert.KernelIdeal.Gen Cert.KernelIdeal.Value

variable {F : FTy → Type} [FloatOps F]
variable (m : (ℓ : Loc nD τ sig) → Buf (Elt F) ℓ) (ρ : Dev nD → PrngReg)

set_option maxHeartbeats 4000000 in
/-- The signal array as the region finds it: the host operations' composed term of the arguments. -/
theorem signal_found (c : Dev nD) :
    (V m c main_v16 : S1600000x3.Idx → Elt F .f32)
      = Cert.EdgeSignal.kernelSignal (m ((c : Thread nD τ).loc main_arg0)) (m ((c : Thread nD τ).loc main_arg2))
          (m ((c : Thread nD τ).loc main_arg3)) := by
  unfold Cert.EdgeSignal.kernelSignal
  dsimp only [Gen.V]
  simp only [hostOps0, hostOps0_1, hostOps0_2, hostOps0_3, hostOps0_4, hostOps0_5, hostOps0_6, hostOps0_7, hostOps0_8, hostOps0_9,
    List.flatten_cons, List.flatten_nil, List.append_nil, List.cons_append, List.nil_append]
  after_results_simp
  rfl

/-- The kernel's run: the result array is the edge signal and the edge features side by side; the arguments unchanged. -/
theorem run_value : θ_run defs (onTc (τ := τ) (main (F := F))) ⟨m, fun _ => 0, ρ⟩ fun r => ∀ c : Dev nD,
      r.2.mem ((c : Thread nD τ).loc main_v17)
        = joined (Cert.EdgeSignal.kernelSignal (m ((c : Thread nD τ).loc main_arg0)) (m ((c : Thread nD τ).loc main_arg2))
            (m ((c : Thread nD τ).loc main_arg3))) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (by rw [signal_found m c, V_main_arg1 m c]), (h c).2⟩)
    (run_joined m ρ)

end Cert.KernelIdeal.Joined

end
-- ==== Proof.Domain.lean ====
/-
  What the precondition says of the edge positions: every entry of the 2 × 1600000 position table is
  not negative (read as a signed 32-bit integer).

  The precondition is a conjunction of four "for all entries" tests folded to one bit; the last is
  `position ≥ 0` over the whole table. A fold of `and` that ends at 1 had a 1 at every entry.
-/
import proofs.«426216_j31009663877641_3_alg».proof.Pre_finite_inputs
import Idealize.ShloMosaic.Lib.ReduceAll
import Idealize.ShloMosaic.Lib.Affine
import Idealize.ShloMosaic.Lib.ValueIdx

noncomputable section

open Idealize.ShloMosaic

namespace Cert.Domain

open Cert.Pre_finite_inputs

variable {F : FTy → Type} [FloatOps F] [Cert.Pre_finite_inputs.Facts]

instance : Subsingleton S_.Idx := ⟨fun a b => funext fun d => d.elim0⟩

/-- Under the precondition every edge position is non-negative. -/
theorem positions_nonneg (a0 : FVec F S100000x128 .f32) (a1 : FVec F S1600000x64 .f32) (a2 : FVec F S3x256 .f32)
    (a3 : IVec S2x1600000 32) (h : fn (F := F) a0 a1 a2 a3 = fun _ => 1#1) (i : S2x1600000.Idx) :
    0 ≤ (a3 i).toInt := by
  have h0 := congrFun h ValueIdx.ix0
  dsimp only [fn, fn_part1] at h0
  have h1 := (IntOp.andi_eq_one.mp h0).2
  have h2 := Host.reduce_andi_all _ _ _ _ _ h1 i
  have h3 := IntOp.cmpi_sge.mp h2
  exact h3

end Cert.Domain

end
-- ==== Proof.lean ====
/-
  A per-edge lift layer of a graph network against its reference, over the extended reals.

  For each of 1600000 edges `e`, with endpoints `src e` and `tgt e` among 100000 nodes, both programs compute
      out (e, k)     = max (s (src e, k) + t (tgt e, k)) 0      for the three heads k,
      out (e, 3 + j) = x_1 (e, j)                                for the 64 edge features j,
  where `s = x_0 · att[:, :128]ᵀ` and `t = x_0 · att[:, 128:]ᵀ` project the node features onto the heads.

  The kernel's program computes the three signal columns in front of its region — through tables widened to
  four columns, rows taken with the positions clamped into the table, the fourth column cut off again — and
  its region lays signal and features side by side, 10000 rows at each of 160 points. The reference sends a
  negative position `i` to `i + 100000` before it takes rows with the same clamp. Under the precondition
  (finite floats; no negative position) a position passes that step unchanged, so both read row
  `min (position) 99999` of the same tables, and the results agree entry by entry. No law of the extended reals
  is used: both sides apply the same operations to the same entries, so the finiteness of the floats is
  never opened.
-/
import proofs.«426216_j31009663877641_3_alg».proof.Defs
import proofs.«426216_j31009663877641_3_alg».proof.Proof.Gen.Kernel
import proofs.«426216_j31009663877641_3_alg».proof.Proof.Gen.Kernel.Frame
import proofs.«426216_j31009663877641_3_alg».proof.Proof.Gen.KernelIdeal
import proofs.«426216_j31009663877641_3_alg».proof.Proof.Gen.KernelIdeal.Frame
import proofs.«426216_j31009663877641_3_alg».proof.Proof.Gen.ReferenceIdeal
import proofs.«426216_j31009663877641_3_alg».proof.Proof.Gen.Pre_finite_inputs
import proofs.«426216_j31009663877641_3_alg».proof.Proof.Gen.ReferenceIdeal.Run
import proofs.«426216_j31009663877641_3_alg».proof.Proof.KernelValue
import proofs.«426216_j31009663877641_3_alg».proof.Proof.Domain
import Idealize.ShloMosaic.Adequacy
import Idealize.ShloMosaic.Init

noncomputable section

namespace Cert.Proof

open Idealize.ShloMosaic Idealize.SL.Sem

/-- The two idealized programs, run from memories that agree on the arguments, end with equal results: the
    kernel's is the edge signal beside the edge features (its run, read), the reference's the same pair with the
    signal computed its own way, and the two signals agree when no position is negative. -/
theorem algebraic :
    @Cert.algebraic_KernelIdeal_ReferenceIdeal Cert.KernelIdeal.Gen.facts Cert.ReferenceIdeal.Gen.facts
      Cert.Pre_finite_inputs.Gen.facts := by
  intro m ρ m' ρ' hpre hagree
  refine ⟨_, Cert.KernelIdeal.Joined.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2,
    Cert.EdgeSignal.signal_agree _ _ _ (fun i => Cert.Domain.positions_nonneg _ _ _ _ (hpre c) i)]
  rfl

/-- The three programs run and leave their arguments as they were (the generated frames; the reference's is its
    run with the result dropped); the idealization rewrote nothing; and the two idealized programs agree. -/
theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2)
      (Cert.ReferenceIdeal.Value.run (F := Ideal) m ρ),
    trivial,
    algebraic⟩

end Cert.Proof

end
